-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x3968 : Shape := ⟨2, ![4096, 3968]⟩
abbrev S4096x128 : Shape := ⟨2, ![4096, 128]⟩
abbrev S4096x1 : Shape := ⟨2, ![4096, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x3968 : S_.BroadcastsInDim S4096x3968 (![] : Fin 0 → Fin S4096x3968.rank)
  reducesTo_S4096x3968_S_d0_1 : S4096x3968.ReducesTo [0, 1] S_
  bcast_S_S4096x128 : S_.BroadcastsInDim S4096x128 (![] : Fin 0 → Fin S4096x128.rank)
  reducesTo_S4096x128_S_d0_1 : S4096x128.ReducesTo [0, 1] S_
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x1 1) : IVec S_ 1 :=
  let main_c_5 : IVec S_ 1 := constantI S_ 1 1#1
  let main_v17 : IVec S_ 1 := (fun x v => Host.reduce IntOp.andi x v reducesTo_S4096x1_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x3968 .f32) (main_arg2 : FVec F S4096x128 .f32) (main_arg3 : FVec F S4096x1 .f32) (main_arg4 : FVec F S4096 .f32) (main_arg5 : IVec S4096 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x3968 .f32 := Host.absf main_arg1
  let main_cst_0 : FVec F S_ .f32 := constant S_ .f32 0x7F800000#32
  let main_v5 : FVec F S4096x3968 .f32 := broadcastInDim S4096x3968 ![] bcast_S_S4096x3968 main_cst_0
  let main_v6 : IVec S4096x3968 1 := cmpf .olt main_v4 main_v5
  let main_c_1 : IVec S_ 1 := constantI S_ 1 1#1
  let main_v7 : IVec S_ 1 := (fun x v => Host.reduce IntOp.andi x v reducesTo_S4096x3968_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x1 .f32 := Host.absf main_arg3
  let main_cst_4 : FVec F S_ .f32 := constant S_ .f32 0x7F800000#32
  let main_v15 : FVec F S4096x1 .f32 := broadcastInDim S4096x1 ![] bcast_S_S4096x1 main_cst_4
  let main_v16 : IVec S4096x1 1 := cmpf .olt main_v14 main_v15
  fn_part1 (F := F) main_arg4 main_v13 main_v16
-- ==== Kernel.lean ====
abbrev S4x2048x4096 : Shape := ⟨3, ![4, 2048, 4096]⟩
abbrev S4096x3968 : Shape := ⟨2, ![4096, 3968]⟩
abbrev S4096x128 : Shape := ⟨2, ![4096, 128]⟩
abbrev S4096x1 : Shape := ⟨2, ![4096, 1]⟩
abbrev S4096 : Shape := ⟨1, ![4096]⟩
abbrev S4096x4096 : Shape := ⟨2, ![4096, 4096]⟩
abbrev S_ : Shape := ⟨0, ![]⟩
abbrev S8192x4096 : Shape := ⟨2, ![8192, 4096]⟩
abbrev S1x4096 : Shape := ⟨2, ![1, 4096]⟩
abbrev S1024x4096 : Shape := ⟨2, ![1024, 4096]⟩
abbrev S4096x256 : Shape := ⟨2, ![4096, 256]⟩
abbrev S1x256 : Shape := ⟨2, ![1, 256]⟩
abbrev S1024x256 : Shape := ⟨2, ![1024, 256]⟩

abbrev nBuf : Space → Nat
  | .hbm => 25
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x3968, .f32⟩
  | .hbm, ⟨2, _⟩ => ⟨S4096x128, .f32⟩
  | .hbm, ⟨3, _⟩ => ⟨S4096x1, .f32⟩
  | .hbm, ⟨4, _⟩ => ⟨S4096, .f32⟩
  | .hbm, ⟨5, _⟩ => ⟨S4096, .i32⟩
  | .hbm, ⟨6, _⟩ => ⟨S4096x3968, .f32⟩
  | .hbm, ⟨7, _⟩ => ⟨S4096x3968, .f32⟩
  | .hbm, ⟨8, _⟩ => ⟨S4096x4096, .f32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S4096x1, .i32⟩
  | .hbm, ⟨17, _⟩ => ⟨S4096x4096, .f32⟩
  | .hbm, ⟨18, _⟩ => ⟨S4096x4096, .f32⟩
  | .hbm, ⟨19, _⟩ => ⟨S4096x4096, .bf16⟩
  | .hbm, ⟨20, _⟩ => ⟨S8192x4096, .f32⟩
  | .hbm, ⟨21, _⟩ => ⟨S8192x4096, .bf16⟩
  | .hbm, ⟨22, _⟩ => ⟨S1x4096, .f32⟩
  | .hbm, ⟨23, _⟩ => ⟨S8192x4096, .f32⟩
  | .hbm, ⟨24, _⟩ => ⟨S4x2048x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S1x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S4096x1_S4096x3968_0_1 : S4096x1.BroadcastsInDim S4096x3968 (![0, 1] : Fin 2 → Fin S4096x3968.rank)
  concatenates_S4096x3968_S4096x128_S4096x4096_d1 : Shape.Concatenates [S4096x3968, S4096x128] S4096x4096 1
  bcast_S_S4096 : S_.BroadcastsInDim S4096 (![] : Fin 0 → Fin S4096.rank)
  bcast_S4096_S4096x1_0 : S4096.BroadcastsInDim S4096x1 (![0] : Fin 1 → Fin S4096x1.rank)
  transposes_S4096x4096_S4096x4096_1_0 : S4096x4096.Transposes [1, 0] S4096x4096
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S8192x4096_S4x2048x4096 : S8192x4096.ShapeCasts S4x2048x4096
  gather_S4096x4096_S4096x1_S4096x4096_0_1_n_n_1_1_40961_wf : GatherDims.WF S4096x4096 S4096x1 S4096x4096 [0] [1] [] [1] [] 1 ![4096, 1]
  dot_S1024x4096_S4096x256_S1024x256_1_0_0_1_n_n_wf : DotDims.WF S1024x4096 S4096x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x4096.size a
  hwx0_1 : ∀ i : grid0.Coords, EltTy.bits .bf16 = 32 ∨ (Rect.block (s := S4096x4096) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x4096.size a
  hwx0_3 : ∀ i : grid0.Coords, EltTy.bits .f32 = 32 ∨ (Rect.block (s := S8192x4096) S1024x256.size (cc0_transform_3 i) (hinb0_3 i)).WholeWords (EltTy.packing .f32)

variable [Facts₀]

def gather_S4096x4096_S4096x1_S4096x4096_0_1_n_n_1_1_40961 : GatherDims S4096x4096 S4096x1 S4096x4096 where
  offsetDims := [0]
  collapsedSliceDims := [1]
  operandBatchingDims := []
  startIndicesBatchingDims := []
  startIndexMap := [1]
  indexVectorDim := 1
  sliceSizes := ![4096, 1]
  wf := gather_S4096x4096_S4096x1_S4096x4096_0_1_n_n_1_1_40961_wf
def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf

abbrev win0_0 : Pipeline.Window sig grid0 :=
  Pipeline.Window.ofSpec (Memref.whole main_v13) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x3968 : Shape := ⟨2, ![4096, 3968]⟩
abbrev S4096x128 : Shape := ⟨2, ![4096, 128]⟩
abbrev S4096x1 : Shape := ⟨2, ![4096, 1]⟩
abbrev S4096 : Shape := ⟨1, ![4096]⟩
abbrev S4096x4096 : Shape := ⟨2, ![4096, 4096]⟩
abbrev S_ : Shape := ⟨0, ![]⟩
abbrev S1x1x4096 : Shape := ⟨3, ![1, 1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x3968, .f32⟩
  | .hbm, ⟨2, _⟩ => ⟨S4096x128, .f32⟩
  | .hbm, ⟨3, _⟩ => ⟨S4096x1, .f32⟩
  | .hbm, ⟨4, _⟩ => ⟨S4096, .f32⟩
  | .hbm, ⟨5, _⟩ => ⟨S4096, .i32⟩
  | .hbm, ⟨6, _⟩ => ⟨S4096x3968, .f32⟩
  | .hbm, ⟨7, _⟩ => ⟨S4096x3968, .f32⟩
  | .hbm, ⟨8, _⟩ => ⟨S4096x4096, .f32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S4096x1, .i32⟩
  | .hbm, ⟨17, _⟩ => ⟨S4096x4096, .f32⟩
  | .hbm, ⟨18, _⟩ => ⟨S4x2048x4096, .f32⟩
  | .hbm, ⟨19, _⟩ => ⟨S1x1x4096, .f32⟩
  | .hbm, ⟨20, _⟩ => ⟨S4x2048x4096, .f32⟩
  | .hbm, ⟨21, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S4096x1_S4096x3968_0_1 : S4096x1.BroadcastsInDim S4096x3968 (![0, 1] : Fin 2 → Fin S4096x3968.rank)
  concatenates_S4096x3968_S4096x128_S4096x4096_d1 : Shape.Concatenates [S4096x3968, S4096x128] S4096x4096 1
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S4096x4096_S4096x1_S4096x4096_0_1_n_n_1_1_40961_wf : GatherDims.WF S4096x4096 S4096x1 S4096x4096 [0] [1] [] [1] [] 1 ![4096, 1]
  dot_S4x2048x4096_S4096x4096_S4x2048x4096_2_1_01_0_n_n_wf : DotDims.WF S4x2048x4096 S4096x4096 S4x2048x4096 [2] [1] [0, 1] [0] [] []

variable [Facts₀]

def gather_S4096x4096_S4096x1_S4096x4096_0_1_n_n_1_1_40961 : GatherDims S4096x4096 S4096x1 S4096x4096 where
  offsetDims := [0]
  collapsedSliceDims := [1]
  operandBatchingDims := []
  startIndicesBatchingDims := []
  startIndexMap := [1]
  indexVectorDim := 1
  sliceSizes := ![4096, 1]
  wf := gather_S4096x4096_S4096x1_S4096x4096_0_1_n_n_1_1_40961_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Layer.lean ====
/-
  The layer both programs compute, as one function of its arrays on the extended reals:

      out[b, s, o]  =  Σ_{k < 4096} x[b, s, k] · W[o, k]  +  bias[o]          (4 × 2048 tokens, 4096 features in and out)

  and the same layer as the kernel lays it out — the tokens flattened to 8192 rows, the weights transposed to
  [in, out], the bias as a single row:

      rows[r, o]  =  Σ_{k < 4096} a[r, k] · B[k, o]  +  c[0, o].

  With row r = b · 2048 + s of `a` the token (b, s) of `x`, `B[k, o] = W[o, k]` and `c[0, o] = bias[o]`, entry (r, o)
  of the second is entry (b, s, o) of the first: the two sums have the same terms in the same order, so nothing
  is used of the extended reals beyond the congruence of + and ·.
-/
import Idealize.ShloMosaic.PureOps.Ideal
import Idealize.ShloMosaic.Lib.ValueIdx

noncomputable section

namespace Cert.Layer

open Idealize.ShloMosaic Idealize.ShloMosaic.ValueIdx
open scoped BigOperators

abbrev Tokens : Shape := ⟨3, ![4, 2048, 4096]⟩
abbrev Rows : Shape := ⟨2, ![8192, 4096]⟩
abbrev Weights : Shape := ⟨2, ![4096, 4096]⟩
abbrev Bias : Shape := ⟨1, ![4096]⟩
abbrev BiasRow : Shape := ⟨2, ![1, 4096]⟩

/-- out[b, s, o] = Σ_k x[b, s, k] · W[o, k] + bias[o]. -/
def layer (x : Tokens.Idx → EReal) (W : Weights.Idx → EReal) (bias : Bias.Idx → EReal) : Tokens.Idx → EReal :=
  fun i => (∑ k : Fin 4096, x (ix3 (n0 := 4) (n1 := 2048) (n2 := 4096) (i 0) (i 1) k) * W (ix2 (n0 := 4096) (n1 := 4096) (i 2) k))
    + bias (ix1 (n := 4096) (i 2))

/-- rows[r, o] = Σ_k a[r, k] · B[k, o] + c[0, o]. -/
def rowsLayer (a : Rows.Idx → EReal) (B : Weights.Idx → EReal) (c : BiasRow.Idx → EReal) : Rows.Idx → EReal :=
  fun i => (∑ k : Fin 4096, a (ix2 (n0 := 8192) (n1 := 4096) (i 0) k) * B (ix2 (n0 := 4096) (n1 := 4096) k (i 1)))
    + c (ix2 (n0 := 1) (n1 := 4096) 0 (i 1))

/-- The flattened layer at entry (r, o), spelt out. -/
theorem rowsLayer_apply (a : Rows.Idx → EReal) (B : Weights.Idx → EReal) (c : BiasRow.Idx → EReal) (r : Fin 8192) (o : Fin 4096) :
    rowsLayer a B c (ix2 (n0 := 8192) (n1 := 4096) r o)
      = (∑ k : Fin 4096, a (ix2 (n0 := 8192) (n1 := 4096) r k) * B (ix2 (n0 := 4096) (n1 := 4096) k o)) + c (ix2 (n0 := 1) (n1 := 4096) 0 o) := rfl

/-- The flattened layer at row b · 2048 + s is the layer at token (b, s), when the flattened arrays are the
    layer's arrays re-laid: term by term the same sum. -/
theorem rowsLayer_eq_layer (x : Tokens.Idx → EReal) (W : Weights.Idx → EReal) (bias : Bias.Idx → EReal)
    (a : Rows.Idx → EReal) (B : Weights.Idx → EReal) (c : BiasRow.Idx → EReal)
    (ha : ∀ (b : Fin 4) (s : Fin 2048) (r : Fin 8192) (k : Fin 4096), r.val = b.val * 2048 + s.val →
      a (ix2 (n0 := 8192) (n1 := 4096) r k) = x (ix3 (n0 := 4) (n1 := 2048) (n2 := 4096) b s k))
    (hB : ∀ (k o : Fin 4096), B (ix2 (n0 := 4096) (n1 := 4096) k o) = W (ix2 (n0 := 4096) (n1 := 4096) o k))
    (hc : ∀ o : Fin 4096, c (ix2 (n0 := 1) (n1 := 4096) 0 o) = bias (ix1 (n := 4096) o))
    (b : Fin 4) (s : Fin 2048) (o : Fin 4096) (r : Fin 8192) (hr : r.val = b.val * 2048 + s.val) :
    rowsLayer a B c (ix2 (n0 := 8192) (n1 := 4096) r o) = layer x W bias (ix3 (n0 := 4) (n1 := 2048) (n2 := 4096) b s o) := by
  show (∑ k : Fin 4096, a (ix2 (n0 := 8192) (n1 := 4096) r k) * B (ix2 (n0 := 4096) (n1 := 4096) k o)) + c (ix2 (n0 := 1) (n1 := 4096) 0 o)
    = (∑ k : Fin 4096, x (ix3 (n0 := 4) (n1 := 2048) (n2 := 4096) b s k) * W (ix2 (n0 := 4096) (n1 := 4096) o k)) + bias (ix1 (n := 4096) o)
  rw [hc o]
  exact congrArg (· + bias (ix1 (n := 4096) o)) (Finset.sum_congr rfl fun k _ => by rw [ha b s r k hr, hB k o])

end Cert.Layer

end
-- ==== Proof.Reference.lean ====
/-
  The reference's result is the layer.

  The reference multiplies the quantised weights by their per-row scale, joins the outlier columns on, undoes
  the column permutation by a gather — call the result `W`, [out, in] — and returns `einsum("bsi,oi->bso", x, W) + bias`.
  Its contraction at output entry (b, s, o) reads x at (b, s, k) and W at (o, k), and the bias, broadcast through
  [1, 1, 4096], is read at o: entry by entry this is `Layer.layer x W bias`. How `W` is made plays no part: the
  kernel makes it with the same operations.
-/
import proofs.«144338_j50414326120584_1_alg».proof.Proof.Gen.ReferenceIdeal.Read
import proofs.«144338_j50414326120584_1_alg».proof.Proof.Layer

noncomputable section

namespace Cert.ReferenceIdeal.AsLayer

open Cert.ReferenceIdeal Cert.ReferenceIdeal.Gen Cert.ReferenceIdeal.Read Idealize.ShloMosaic Idealize.ShloMosaic.ValueIdx Cert.Layer
open scoped BigOperators

/-- The contraction's left operand index at output entry `i`, position `k`: (i 0, i 1, k). -/
theorem left_index (i : S4x2048x4096.Idx) (k : Fin 4096) :
    lidx_main_v10 i k = ix3 (n0 := 4) (n1 := 2048) (n2 := 4096) (i 0) (i 1) k :=
  funext fun a => by match a with | ⟨0, _⟩ => rfl | ⟨1, _⟩ => rfl | ⟨2, _⟩ => rfl
/-- Its right operand index: (i 2, k). -/
theorem right_index (i : S4x2048x4096.Idx) (k : Fin 4096) :
    ridx_main_v10 i k = ix2 (n0 := 4096) (n1 := 4096) (i 2) k :=
  funext fun a => by match a with | ⟨0, _⟩ => rfl | ⟨1, _⟩ => rfl
/-- The bias, broadcast twice, is read at the output feature: (i 2). -/
theorem bias_index (i : S4x2048x4096.Idx) :
    idx_main_v11 (idx_main_v12 i) = ix1 (n := 4096) (i 2) :=
  funext fun a => by match a with | ⟨0, _⟩ => rfl

/-- THE REFERENCE'S RESULT, as a function of its arguments, is the layer over the gathered weights. -/
theorem result_eq (x0 : (⟨S4x2048x4096, .f32⟩ : BufTy).Contents (Elt Ideal)) (x1 : (⟨S4096x3968, .f32⟩ : BufTy).Contents (Elt Ideal))
    (x2 : (⟨S4096x128, .f32⟩ : BufTy).Contents (Elt Ideal)) (x3 : (⟨S4096x1, .f32⟩ : BufTy).Contents (Elt Ideal))
    (x4 : (⟨S4096, .f32⟩ : BufTy).Contents (Elt Ideal)) (x5 : (⟨S4096, .i32⟩ : BufTy).Contents (Elt Ideal)) :
    val_main_v13 (F := Ideal) x0 x1 x2 x3 x4 x5 = layer x0 (val_main_v9 (F := Ideal) x1 x2 x3 x5) x4 := by
  funext i
  rw [val_main_v13_apply, val_main_v10_apply, val_main_v12_apply, val_main_v11_apply]
  simp only [left_index, right_index, bias_index]
  rfl

end Cert.ReferenceIdeal.AsLayer

end
-- ==== Proof.Staged.lean ====
/-
  What the kernel region finds in the three arrays it stages.

  Before the region the host computes the gathered weights `W` [out, in] — the quantised weights times their
  per-row scale, the outlier columns joined on, the columns gathered at the (sign-normalised) inverse permutation
  — and hands the region
    · the input flattened to rows and cast to bf16:   rows[b · 2048 + s, k] = x[b, s, k],
    · `W` transposed and cast to bf16:                 w_t[k, o] = W[o, k],
    · the bias as a single row:                        bias_row[0, o] = bias[o].
  At the ideal instance a cast of float format is the identity, so each is a re-indexing of an argument array
  (or of `W`): a reshape keeps the row-major position, a transpose swaps the two coordinates.
-/
import proofs.«144338_j50414326120584_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Staged

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]

/-- The gathered weights `W` [out, in], as a function of the four arguments they depend on: the host's own
    operations, in its order. -/
def weights (q : (⟨S4096x3968, .f32⟩ : BufTy).Contents (Elt F)) (fp : (⟨S4096x128, .f32⟩ : BufTy).Contents (Elt F))
    (alpha : (⟨S4096x1, .f32⟩ : BufTy).Contents (Elt F)) (perm : (⟨S4096, .i32⟩ : BufTy).Contents (Elt F)) :
    (⟨S4096x4096, .f32⟩ : BufTy).Contents (Elt F) :=
  Host.gather gather_S4096x4096_S4096x1_S4096x4096_0_1_n_n_1_1_40961
    (concatenate S4096x4096 1 [⟨S4096x3968, mulf q (broadcastInDim S4096x3968 ![0, 1] bcast_S4096x1_S4096x3968_0_1 alpha)⟩, ⟨S4096x128, fp⟩] concatenates_S4096x3968_S4096x128_S4096x4096_d1)
    (broadcastInDim S4096x1 ![0] bcast_S4096_S4096x1_0
      (select (cmpi .slt perm (broadcastInDim S4096 ![] bcast_S_S4096 (constantI S_ 32 0#32)))
        (addi perm (broadcastInDim S4096 ![] bcast_S_S4096 (constantI S_ 32 4096#32))) perm))

variable (m : (ℓ : Loc nD τ sig) → Buf (Elt F) ℓ)

/-- The rows the region stages: the input reshaped to [8192, 4096] and cast to bf16. -/
theorem rows_eq (c : Dev nD) :
    (V m c main_v13 : S8192x4096.Idx → Elt F .bf16)
      = truncf .bf16 (shapeCast S8192x4096 (m ((c : Thread nD τ).loc main_arg0)) shapeCasts_S4x2048x4096_S8192x4096) bitsLt_bf16_f32 := by
  show StableHlo.after hostOps0 (fun b => m (c, b)) (Proc.devRef .tc main_v13) = _
  after_results
  rfl

/-- The transposed weights the region stages: `W` transposed and cast to bf16. -/
theorem weightsT_eq (c : Dev nD) :
    (V m c main_v11 : S4096x4096.Idx → Elt F .bf16)
      = truncf .bf16 (transpose S4096x4096 [1, 0]
          (weights (m ((c : Thread nD τ).loc main_arg1)) (m ((c : Thread nD τ).loc main_arg2)) (m ((c : Thread nD τ).loc main_arg3)) (m ((c : Thread nD τ).loc main_arg5)))
          transposes_S4096x4096_S4096x4096_1_0) bitsLt_bf16_f32 := by
  show StableHlo.after hostOps0 (fun b => m (c, b)) (Proc.devRef .tc main_v11) = _
  after_results
  rfl

/-- The bias row the region stages: the bias reshaped to [1, 4096]. -/
theorem biasRow_eq (c : Dev nD) :
    (V m c main_v14 : S1x4096.Idx → Elt F .f32)
      = shapeCast S1x4096 (m ((c : Thread nD τ).loc main_arg4)) shapeCasts_S4096_S1x4096 := by
  show StableHlo.after hostOps0 (fun b => m (c, b)) (Proc.devRef .tc main_v14) = _
  after_results
  rfl

end Cert.KernelIdeal.Staged

/-! ## The same, entry by entry, at the ideal instance -/

namespace Cert.KernelIdeal.Staged

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Row b · 2048 + s of the staged rows is token (b, s) of the input. -/
theorem rows_apply (c : Dev nD) (b : Fin 4) (s : Fin 2048) (r : Fin 8192) (k : Fin 4096) (hr : r.val = b.val * 2048 + s.val) :
    (V m c main_v13 : S8192x4096.Idx → EReal) (ix2 (n0 := 8192) (n1 := 4096) r k)
      = (m ((c : Thread nD τ).loc main_arg0) : S4x2048x4096.Idx → EReal) (ix3 (n0 := 4) (n1 := 2048) (n2 := 4096) b s k) := by
  rw [rows_eq]
  refine (truncf_apply _ bitsLt_bf16_f32 _).trans ?_
  refine shapeCast_apply _ shapeCasts_S4x2048x4096_S8192x4096 _ (ix3 (n0 := 4) (n1 := 2048) (n2 := 4096) b s k) ?_
  rw [Shape.rowMajor_val_three, Shape.rowMajor_val_two]
  show (b.val * 2048 + s.val) * 4096 + k.val = r.val * 4096 + k.val
  rw [hr]

/-- Entry (k, o) of the staged transposed weights is entry (o, k) of `W`. -/
theorem weightsT_apply (c : Dev nD) (k o : Fin 4096) :
    (V m c main_v11 : S4096x4096.Idx → EReal) (ix2 (n0 := 4096) (n1 := 4096) k o)
      = weights (F := Ideal) (m ((c : Thread nD τ).loc main_arg1)) (m ((c : Thread nD τ).loc main_arg2)) (m ((c : Thread nD τ).loc main_arg3)) (m ((c : Thread nD τ).loc main_arg5))
          (ix2 (n0 := 4096) (n1 := 4096) o k) := by
  rw [weightsT_eq]
  refine (truncf_apply _ bitsLt_bf16_f32 _).trans ?_
  exact transpose_apply _ _ transposes_S4096x4096_S4096x4096_1_0 _ (ix2 (n0 := 4096) (n1 := 4096) o k) (fun a => match a with
    | ⟨0, _⟩ => rfl
    | ⟨1, _⟩ => rfl)

/-- Entry (0, o) of the staged bias row is entry o of the bias. -/
theorem biasRow_apply (c : Dev nD) (o : Fin 4096) :
    (V m c main_v14 : S1x4096.Idx → EReal) (ix2 (n0 := 1) (n1 := 4096) 0 o)
      = (m ((c : Thread nD τ).loc main_arg4) : S4096.Idx → EReal) (ix1 (n := 4096) o) := by
  rw [biasRow_eq]
  refine shapeCast_apply _ shapeCasts_S4096_S1x4096 _ (ix1 (n := 4096) o) ?_
  rw [Shape.rowMajor_val_one, Shape.rowMajor_val_two]
  show o.val = 0 * 4096 + o.val
  omega

end Cert.KernelIdeal.Staged

end
-- ==== Proof.Tile.lean ====
/-
  The body's arithmetic at one entry of its tile.

  The body loads a 1024×4096 block `a` of the rows, a 4096×256 block `b` of the transposed weights and a 1×256
  block `c` of the bias, and stores `a · b + c` (the bias row repeated down the 1024 rows). Read at the ideal
  instance, entry (p, q) of what it stores is the plain sum
      Σ_{k < 4096} a[p, k] · b[k, q]  +  c[0, q]
  on the extended reals: the product into a zero accumulator is the bare sum (0 + s = s holds for every extended
  real s, so nothing is asked of the entries), and a change of float format is the identity.
-/
import proofs.«144338_j50414326120584_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx
open scoped BigOperators

/-! ## The block product's operand indices, coordinate by coordinate

At output entry `i` and contraction position `q` the left operand is read at (i 0, q) and the right one at
(q, i 1). -/

theorem lhs_row (i : S1024x256.Idx) (q : dot_S1024x4096_S4096x256_S1024x256_1_0_0_1_n_n.contr.Idx) :
    (dot_S1024x4096_S4096x256_S1024x256_1_0_0_1_n_n.lhsIdx i q 0).val = (i 0).val := by
  unfold DotDims.lhsIdx
  rw [dif_neg (show ¬(0 : Fin S1024x4096.rank) ∈ dot_S1024x4096_S4096x256_S1024x256_1_0_0_1_n_n.lhsBatch by decide), dif_pos (show (0 : Fin S1024x4096.rank) ∈ dot_S1024x4096_S4096x256_S1024x256_1_0_0_1_n_n.lhsNonContracting by decide)]
  rfl
theorem lhs_col (i : S1024x256.Idx) (q : dot_S1024x4096_S4096x256_S1024x256_1_0_0_1_n_n.contr.Idx) :
    (dot_S1024x4096_S4096x256_S1024x256_1_0_0_1_n_n.lhsIdx i q 1).val = (q ⟨0, by decide⟩).val :=
  dot_S1024x4096_S4096x256_S1024x256_1_0_0_1_n_n.lhsIdx_val_of_single rfl i q
theorem rhs_row (i : S1024x256.Idx) (q : dot_S1024x4096_S4096x256_S1024x256_1_0_0_1_n_n.contr.Idx) :
    (dot_S1024x4096_S4096x256_S1024x256_1_0_0_1_n_n.rhsIdx i q 0).val = (q ⟨0, by decide⟩).val :=
  dot_S1024x4096_S4096x256_S1024x256_1_0_0_1_n_n.rhsIdx_val_of_single rfl i q
theorem rhs_col (i : S1024x256.Idx) (q : dot_S1024x4096_S4096x256_S1024x256_1_0_0_1_n_n.contr.Idx) :
    (dot_S1024x4096_S4096x256_S1024x256_1_0_0_1_n_n.rhsIdx i q 1).val = (i 1).val := by
  unfold DotDims.rhsIdx
  rw [dif_neg (show ¬(1 : Fin S4096x256.rank) ∈ dot_S1024x4096_S4096x256_S1024x256_1_0_0_1_n_n.rhsBatch by decide), dif_pos (show (1 : Fin S4096x256.rank) ∈ dot_S1024x4096_S4096x256_S1024x256_1_0_0_1_n_n.rhsNonContracting by decide)]
  rfl

/-- The block product into the zero accumulator, at entry (p, q): the sum over the 4096 contraction positions,
    re-indexed from the product's own contraction index set to `Fin 4096`. -/
theorem product_apply (a : FVec Ideal S1024x4096 .bf16) (b : FVec Ideal S4096x256 .bf16) (p : Fin 1024) (q : Fin 256) :
    matmul dot_S1024x4096_S4096x256_S1024x256_1_0_0_1_n_n none a b (constant S1024x256 .f32 0x00000000#32) (ix2 p q)
      = ∑ k : Fin 4096, a (ix2 p k) * b (ix2 k q) := by
  simp only [matmul]
  rw [Ideal.matmul_constant_zero_apply, ← Equiv.sum_comp (contrEquiv1 dot_S1024x4096_S4096x256_S1024x256_1_0_0_1_n_n 4096 rfl rfl).symm]
  refine Finset.sum_congr rfl fun k _ => ?_
  have hk := contrEquiv1_symm_val dot_S1024x4096_S4096x256_S1024x256_1_0_0_1_n_n 4096 rfl rfl k
  have el : dot_S1024x4096_S4096x256_S1024x256_1_0_0_1_n_n.lhsIdx (ix2 p q) ((contrEquiv1 dot_S1024x4096_S4096x256_S1024x256_1_0_0_1_n_n 4096 rfl rfl).symm k) = ix2 p k := funext fun x => Fin.ext (by
    match x with
    | ⟨0, _⟩ => exact lhs_row _ _
    | ⟨1, _⟩ => exact (lhs_col _ _).trans hk)
  have er : dot_S1024x4096_S4096x256_S1024x256_1_0_0_1_n_n.rhsIdx (ix2 p q) ((contrEquiv1 dot_S1024x4096_S4096x256_S1024x256_1_0_0_1_n_n 4096 rfl rfl).symm k) = ix2 k q := funext fun x => Fin.ext (by
    match x with
    | ⟨0, _⟩ => exact (rhs_row _ _).trans hk
    | ⟨1, _⟩ => exact rhs_col _ _)
  rw [el, er]

/-- The bias row repeated down the tile's rows, at entry (p, q): the row's entry q. -/
theorem bias_rows_apply (c : FVec Ideal S1x256 .f32) (p : Fin 1024) (q : Fin 256) :
    broadcastTo S1024x256 c broadcasts_S1x256_S1024x256 (ix2 p q) = c (ix2 0 q) :=
  broadcastTo_apply c broadcasts_S1x256_S1024x256 (ix2 p q) (ix2 0 q) (fun x => match x with
    | ⟨0, _⟩ => by show 0 = if (1 : Nat) = 1 then 0 else _; rw [if_pos rfl]
    | ⟨1, _⟩ => by show q.val = if (256 : Nat) = 1 then 0 else q.val; rw [if_neg (by decide)])

/-- WHAT THE BODY STORES, at entry (p, q) of the tile: Σ_k a[p,k]·b[k,q] + c[0,q]. -/
theorem stored_apply (a : Vec Ideal S1024x4096 .bf16) (b : Vec Ideal S4096x256 .bf16) (c : Vec Ideal S1x256 .f32) (p : Fin 1024) (q : Fin 256) :
    k0_pay1 (F := Ideal) a b c (ix2 p q) = (∑ k : Fin 4096, a (ix2 p k) * b (ix2 k q)) + c (ix2 0 q) := by
  unfold k0_pay1
  simp only [shapeCast_self]
  rw [addf_apply, product_apply, bias_rows_apply]

end Cert.KernelIdeal.Tile

end
-- ==== Proof.Tiles.lean ====
/-
  From the body's tiles to the whole output array.

  The grid has 8 × 16 points. At point (i, j) the region hands the body rows 1024·i … 1024·i + 1023 of the staged
  rows (all 4096 columns), columns 256·j … 256·j + 255 of the staged transposed weights (all 4096 rows) and the
  same columns of the bias row, and writes the body's tile back to rows 1024·i …, columns 256·j … of the output.
  Entry (p, q) of that tile is Σ_k rows[1024·i + p, k] · w_t[k, 256·j + q] + bias_row[0, 256·j + q], which is the
  flattened layer `Layer.rowsLayer` of the three staged arrays at (1024·i + p, 256·j + q): every tile is the
  restriction of ONE whole-array function. The 128 tiles cover the 8192 × 4096 output (the point that covers
  (r, o) is (r / 1024, o / 256)), so after the region the output array is that function.
-/
import proofs.«144338_j50414326120584_1_alg».proof.Proof.Gen.KernelIdeal.Frame
import proofs.«144338_j50414326120584_1_alg».proof.Proof.Tile
import proofs.«144338_j50414326120584_1_alg».proof.Proof.Layer
import Idealize.ShloMosaic.Lib.Pipeline.Value
import Idealize.ShloMosaic.Lib.ValueIdx

set_option maxRecDepth 16384

noncomputable section

namespace Cert.KernelIdeal.Tiles

open Cert.KernelIdeal Cert.KernelIdeal.Gen Idealize.ShloMosaic Idealize.ShloMosaic.TcCoe Idealize.SL.Sem
open Idealize.ShloMosaic.ValueIdx Cert.Layer
open scoped BigOperators

variable (m : (ℓ : Loc nD τ sig) → Buf (Elt Ideal) ℓ)

/-- The flattened layer of the three arrays the region stages: what the output array will hold. -/
abbrev rowsOut (c : Dev nD) : S8192x4096.Idx → EReal :=
  rowsLayer (V m c main_v13) (V m c main_v11) (V m c main_v14)

theorem origin : (![0, 0] : Fin 2 → Nat) = fun _ => 0 := funext fun a => by fin_cases a <;> rfl

/-- The four index maps over the 128 points: the rows' block follows the output's row block and sits at column
    block 0; the weights' and the bias's blocks follow the output's column block and sit at row block 0; the
    output's block indices range over 8 × 16. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 7 ∧ win0_3.index t (1 : Fin 2) ≤ 15 :=
  (by decide +kernel : ∀ t : Fin grid0.N, _)

/-- Every one of the 8 × 16 output blocks is some point's. -/
theorem index_onto : ∀ (q0 : Fin 8) (q1 : Fin 16), ∃ t : Fin cfg0.N, win0_3.index t = ![q0.val, q1.val] :=
  (by decide +kernel : ∀ (q0 : Fin 8) (q1 : Fin 16), ∃ t : Fin grid0.N, win0_3.index t = ![q0.val, q1.val])

/-! ## The input blocks, read where the output's block says -/

/-- Entry (p, k) of the rows' block at point `t` is the staged rows at (1024 · i + p, k), `i` the output's row block. -/
theorem rows_block (c : Dev nD) (t : Fin cfg0.N) (p : Fin 1024) (k : Fin 4096) (r : Fin 8192)
    (hr : r.val = win0_3.index t (0 : Fin 2) * 1024 + p.val) :
    iblk m c 0 t (ix2 (n0 := 1024) (n1 := 4096) p k) = V m c main_v13 (ix2 (n0 := 8192) (n1 := 4096) r k) := by
  obtain ⟨e0, e1, -⟩ := index_facts t
  show V m c main_v13 (((cfg0.win 0).blk t).view.emb (ix2 (n0 := 1024) (n1 := 4096) p k)) = _
  have h : ((cfg0.win 0).blk t).view.emb (ix2 (n0 := 1024) (n1 := 4096) p k) = ix2 (n0 := 8192) (n1 := 4096) r k := by
    funext a; apply Fin.ext
    match a with
    | ⟨0, _⟩ => show win0_0.index t (0 : Fin 2) * 1024 + 1 * p.val = r.val; omega
    | ⟨1, _⟩ => show win0_0.index t (1 : Fin 2) * 4096 + 1 * k.val = k.val; omega
  rw [h]

/-- Entry (k, q) of the weights' block at point `t` is the staged transposed weights at (k, 256 · j + q), `j` the
    output's column block. -/
theorem weights_block (c : Dev nD) (t : Fin cfg0.N) (k : Fin 4096) (q : Fin 256) (o : Fin 4096)
    (ho : o.val = win0_3.index t (1 : Fin 2) * 256 + q.val) :
    iblk m c 1 t (ix2 (n0 := 4096) (n1 := 256) k q) = V m c main_v11 (ix2 (n0 := 4096) (n1 := 4096) k o) := by
  obtain ⟨-, -, e2, e3, -⟩ := index_facts t
  show V m c main_v11 (((cfg0.win 1).blk t).view.emb (ix2 (n0 := 4096) (n1 := 256) k q)) = _
  have h : ((cfg0.win 1).blk t).view.emb (ix2 (n0 := 4096) (n1 := 256) k q) = ix2 (n0 := 4096) (n1 := 4096) k o := by
    funext a; apply Fin.ext
    match a with
    | ⟨0, _⟩ => show win0_1.index t (0 : Fin 2) * 4096 + 1 * k.val = k.val; omega
    | ⟨1, _⟩ => show win0_1.index t (1 : Fin 2) * 256 + 1 * q.val = o.val; omega
  rw [h]

/-- Entry (0, q) of the bias's block at point `t` is the staged bias row at (0, 256 · j + q). -/
theorem bias_block (c : Dev nD) (t : Fin cfg0.N) (q : Fin 256) (o : Fin 4096)
    (ho : o.val = win0_3.index t (1 : Fin 2) * 256 + q.val) :
    iblk m c 2 t (ix2 (n0 := 1) (n1 := 256) 0 q) = V m c main_v14 (ix2 (n0 := 1) (n1 := 4096) 0 o) := by
  obtain ⟨-, -, -, -, e4, e5, -⟩ := index_facts t
  show V m c main_v14 (((cfg0.win 2).blk t).view.emb (ix2 (n0 := 1) (n1 := 256) 0 q)) = _
  have h : ((cfg0.win 2).blk t).view.emb (ix2 (n0 := 1) (n1 := 256) 0 q) = ix2 (n0 := 1) (n1 := 4096) 0 o := by
    funext a; apply Fin.ext
    match a with
    | ⟨0, _⟩ => show win0_2.index t (0 : Fin 2) * 1 + 1 * 0 = 0; omega
    | ⟨1, _⟩ => show win0_2.index t (1 : Fin 2) * 256 + 1 * q.val = o.val; omega
  rw [h]

/-! ## What a point writes back -/

/-- The body's tile at point `t`, entry (p, q), is the flattened layer of the staged arrays at
    (1024 · i + p, 256 · j + q), (i, j) the output's block at `t`: the three block reads under the body's sum. -/
theorem tile_at (c : Dev nD) (t : Fin cfg0.N) (p : Fin 1024) (q : Fin 256) (r : Fin 8192) (o : Fin 4096)
    (hr : r.val = win0_3.index t (0 : Fin 2) * 1024 + p.val) (ho : o.val = win0_3.index t (1 : Fin 2) * 256 + q.val) :
    k0_pay1 (F := Ideal) (iblk m c 0 t) (iblk m c 1 t) (iblk m c 2 t) (ix2 (n0 := 1024) (n1 := 256) p q)
      = rowsOut m c (ix2 (n0 := 8192) (n1 := 4096) r o) := by
  refine (Tile.stored_apply (iblk m c 0 t) (iblk m c 1 t) (iblk m c 2 t) p q).trans ?_
  refine Eq.trans ?_ (rowsLayer_apply _ _ _ r o).symm
  exact congrArg₂ (fun u v : EReal => u + v)
    (Finset.sum_congr rfl fun k _ => congrArg₂ (fun u v : EReal => u * v) (rows_block m c t p k r hr) (weights_block m c t k q o ho))
    (bias_block m c t q o ho)

/-- WHAT POINT `t` WRITES BACK is block `t` of the flattened layer of the staged arrays. -/
theorem flushed_eq (c : Dev nD) (t : Fin cfg0.N) :
    (dats m 0 c).flushed 3 t = ((cfg0.win 3).blk t).view.read (Elt Ideal) (rowsOut m c) := by
  show (cfg0.win 3).cut (grid0.coords t) ((dats m 0 c).after 3 t) = _
  rw [after0_3]
  unfold out0_3
  rw [View.canon_unit_zero origin]
  simp only [View.ld_unit_zero (S := S1024x4096) origin, View.ld_unit_zero (S := S4096x256) origin, View.ld_unit_zero (S := S1x256) origin]
  obtain ⟨-, -, -, -, -, -, e6, e7⟩ := index_facts t
  refine funext fun (j : S1024x256.Idx) => ?_
  obtain ⟨p, q, rfl⟩ : ∃ (p : Fin 1024) (q : Fin 256), j = ix2 (n0 := 1024) (n1 := 256) p q := ⟨j 0, j 1, eq_ix2 j⟩
  have hp : p.val < 1024 := p.isLt
  have hq : q.val < 256 := q.isLt
  have hout : ((cfg0.win 3).blk t).view.emb (ix2 (n0 := 1024) (n1 := 256) p q)
      = ix2 (n0 := 8192) (n1 := 4096) ⟨win0_3.index t (0 : Fin 2) * 1024 + p.val, by omega⟩ ⟨win0_3.index t (1 : Fin 2) * 256 + q.val, by omega⟩ := by
    funext a; apply Fin.ext
    match a with
    | ⟨0, _⟩ => show win0_3.index t (0 : Fin 2) * 1024 + 1 * p.val = win0_3.index t (0 : Fin 2) * 1024 + p.val; omega
    | ⟨1, _⟩ => show win0_3.index t (1 : Fin 2) * 256 + 1 * q.val = win0_3.index t (1 : Fin 2) * 256 + q.val; omega
  show k0_pay1 (F := Ideal) (iblk m c 0 t) (iblk m c 1 t) (iblk m c 2 t) (ix2 (n0 := 1024) (n1 := 256) p q)
    = rowsOut m c (((cfg0.win 3).blk t).view.emb (ix2 (n0 := 1024) (n1 := 256) p q))
  rw [hout]
  exact tile_at m c t p q _ _ rfl rfl

/-! ## The cover, and the array after the region -/

/-- An index of the output array is in point `t`'s block iff each coordinate is in the block's range on its axis. -/
theorem mem_block (t : Fin cfg0.N) (i : S8192x4096.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v15).slice (win0_3.rect t)).set ↔ _
  rw [View.set_slice_whole, Rect.mem_set_unit]
  exact Iff.rfl

/-- Every index (r, o) of the output is written by the point whose block is (r / 1024, o / 256). -/
theorem covered (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := index_onto ⟨(i 0).val / 1024, by omega⟩ ⟨(i 1).val / 256, by omega⟩
  have q0 : win0_3.index t (0 : Fin 2) = (i 0).val / 1024 := congrFun ht 0
  have q1 : win0_3.index t (1 : Fin 2) = (i 1).val / 256 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 256 ≤ (i 1).val ∧ (i 1).val < win0_3.index t (1 : Fin 2) * 256 + 256; omega

/-- THE OUTPUT ARRAY AFTER THE REGION is the flattened layer of the staged arrays. -/
theorem final (c : Dev nD) : (dats m 0 c).arrAt 3 cfg0.N = rowsOut m c :=
  (dats m 0 c).arrAt_eq_of_cover 3 (rowsOut m c) (fun t _ => flushed_eq m c t) (covered)

end Cert.KernelIdeal.Tiles

end
-- ==== Proof.Result.lean ====
/-
  The kernel's run, with its result named.

  After the region the host reshapes the [8192, 4096] output to [4, 2048, 4096]: entry (b, s, o) of the result is
  entry (b · 2048 + s, o) of the region's output (a reshape keeps the row-major position). The region's output is
  the flattened layer of the staged arrays (Tiles.final), and the staged arrays are the arguments re-laid
  (Staged.*_apply): so the result is `Layer.layer x W bias`, `W` the gathered weights. The frame run then says
  that every execution ends with the result array at that function and the arguments as they were.
-/
import proofs.«144338_j50414326120584_1_alg».proof.Proof.Gen.KernelIdeal.Frame
import proofs.«144338_j50414326120584_1_alg».proof.Proof.Layer
import proofs.«144338_j50414326120584_1_alg».proof.Proof.Staged
import proofs.«144338_j50414326120584_1_alg».proof.Proof.Tiles
import Idealize.ShloMosaic.Lib.StableHlo.Run
import Idealize.ShloMosaic.Lib.Pipeline.Value
import Idealize.ShloMosaic.Lib.ValueIdx

noncomputable section

namespace Cert.KernelIdeal.Result

open Cert.KernelIdeal Cert.KernelIdeal.Gen Idealize.ShloMosaic Idealize.ShloMosaic.TcCoe Idealize.SL.Sem Idealize.ShloMosaic.StableHlo
open Idealize.ShloMosaic.ValueIdx Cert.Layer

variable (m : (ℓ : Loc nD τ sig) → Buf (Elt Ideal) ℓ) (ρ : Dev nD → PrngReg)

/-- The layer of the arguments as launched: what the result array will hold. -/
abbrev out (c : Dev nD) : S4x2048x4096.Idx → EReal :=
  layer (m ((c : Thread nD τ).loc main_arg0))
    (Staged.weights (F := Ideal) (m ((c : Thread nD τ).loc main_arg1)) (m ((c : Thread nD τ).loc main_arg2)) (m ((c : Thread nD τ).loc main_arg3)) (m ((c : Thread nD τ).loc main_arg5)))
    (m ((c : Thread nD τ).loc main_arg4))

/-- The result buffer after the host's last line: the region's output array, reshaped. -/
theorem tail_eq (c : Dev nD) :
    (Pipeline.afterTail₀ cfgs (dats m) 0 (V0 m) [hostOps1] c main_v16 : S4x2048x4096.Idx → EReal)
      = shapeCast S4x2048x4096 (Tiles.rowsOut m c) shapeCasts_S8192x4096_S4x2048x4096 := by
  unfold Pipeline.afterTail₀
  show StableHlo.after hostOps1 _ (Proc.devRef .tc main_v16) = _
  after_results
  have hw : Pipeline.withArrays (cfgs 0).spec c (V0 m c) (fun w => (dats m 0 c).arrAt w (cfgs 0).N) (Proc.devRef .tc main_v15) = Tiles.rowsOut m c :=
    (Pipeline.withArrays_arr spec0 launch0.win.arr_inj c (V0 m c) (fun w => (dats m 0 c).arrAt w cfg0.N) 3).trans (Tiles.final m c)
  rw [hw]
  rfl

/-- Entry (b, s, o) of the result is the layer of the arguments there. -/
theorem tail_apply (c : Dev nD) (b : Fin 4) (s : Fin 2048) (o : Fin 4096) :
    (Pipeline.afterTail₀ cfgs (dats m) 0 (V0 m) [hostOps1] c main_v16 : S4x2048x4096.Idx → EReal) (ix3 (n0 := 4) (n1 := 2048) (n2 := 4096) b s o)
      = out m c (ix3 (n0 := 4) (n1 := 2048) (n2 := 4096) b s o) := by
  have hb : b.val < 4 := b.isLt
  have hs : s.val < 2048 := s.isLt
  rw [tail_eq]
  refine (shapeCast_apply _ shapeCasts_S8192x4096_S4x2048x4096 (ix3 (n0 := 4) (n1 := 2048) (n2 := 4096) b s o)
    (ix2 (n0 := 8192) (n1 := 4096) ⟨b.val * 2048 + s.val, by omega⟩ o) ?_).trans ?_
  · rw [Shape.rowMajor_val_two, Shape.rowMajor_val_three]
    rfl
  · exact rowsLayer_eq_layer _ _ _ _ _ _ (fun b s r k h => Staged.rows_apply m c b s r k h) (fun k o => Staged.weightsT_apply m c k o)
      (fun o => Staged.biasRow_apply m c o) b s o ⟨b.val * 2048 + s.val, by omega⟩ rfl

/-- THE RESULT ARRAY after the host's last line is the layer of the arguments. -/
theorem tail_is_layer (c : Dev nD) :
    (Pipeline.afterTail₀ cfgs (dats m) 0 (V0 m) [hostOps1] c main_v16 : S4x2048x4096.Idx → EReal) = out m c := by
  funext i
  obtain ⟨b, s, o, rfl⟩ : ∃ (b : Fin 4) (s : Fin 2048) (o : Fin 4096), i = ix3 (n0 := 4) (n1 := 2048) (n2 := 4096) b s o := ⟨i 0, i 1, i 2, eq_ix3 i⟩
  exact tail_apply m c b s o

/-- THE RUN: every weakly fair execution of the kernel's program terminates with the result array at the layer of
    the arguments and the arguments unchanged. -/
theorem run : θ_run defs (onTc (τ := τ) (main (F := Ideal))) ⟨m, fun _ => 0, ρ⟩ fun r => ∀ c : Dev nD,
      r.2.mem ((c.tc : Thread nD τ).loc main_v16) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v16 (Pipeline.mem_restRefs_of main_v16 (by decide) (by decide))).trans (tail_is_layer m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.lean ====
/-
  The kernel and its reference compute one affine layer, out[b, s, o] = Σ_k x[b, s, k] · W[o, k] + bias[o], where
  `W` [out, in] is made from the quantised weights (scaled row by row), the outlier columns and the inverse column
  permutation by the same host operations in both programs.

  The kernel flattens the tokens to 8192 rows, transposes `W`, and lets a 8 × 16 grid of 1024 × 256 tiles each
  compute (rows block) · (weights block) + (bias block); the reference contracts the unflattened arrays directly.
  At the ideal instance a cast to bf16 is the identity and a product into a zero accumulator is the bare sum, so
  every tile is a restriction of the flattened layer, the tiles cover the output, and the reshaped output is the
  layer (Proof/Tile, Tiles, Staged, Result); the reference's result is the layer entry by entry (Proof/Reference).
  The two sums have the same terms in the same order: no law of the extended reals beyond congruence is used, and
  the finiteness of the inputs is never opened.

  The frames: the kernel's two are the generated frame certificates; the reference's is its run with the result
  dropped. The idealization rewrote no operation, so `preserves` has nothing to state.
-/
import proofs.«144338_j50414326120584_1_alg».proof.Defs
import proofs.«144338_j50414326120584_1_alg».proof.Proof.Gen.Kernel
import proofs.«144338_j50414326120584_1_alg».proof.Proof.Gen.Kernel.Frame
import proofs.«144338_j50414326120584_1_alg».proof.Proof.Gen.KernelIdeal
import proofs.«144338_j50414326120584_1_alg».proof.Proof.Gen.KernelIdeal.Frame
import proofs.«144338_j50414326120584_1_alg».proof.Proof.Gen.ReferenceIdeal
import proofs.«144338_j50414326120584_1_alg».proof.Proof.Gen.ReferenceIdeal.Run
import proofs.«144338_j50414326120584_1_alg».proof.Proof.Gen.ReferenceIdeal.Read
import proofs.«144338_j50414326120584_1_alg».proof.Proof.Gen.Pre_finite_inputs
import proofs.«144338_j50414326120584_1_alg».proof.Proof.Reference
import proofs.«144338_j50414326120584_1_alg».proof.Proof.Result
import Idealize.ShloMosaic.Adequacy
import Idealize.ShloMosaic.Init

noncomputable section

namespace Cert.Proof

open Idealize.ShloMosaic Idealize.SL.Sem

/-- The gathered weights are made by the same operations in both programs: the reference's stage and the
    kernel's host term are one function of the four arguments. -/
theorem weights_eq (q : (⟨Cert.ReferenceIdeal.S4096x3968, .f32⟩ : BufTy).Contents (Elt Ideal)) (fp : (⟨Cert.ReferenceIdeal.S4096x128, .f32⟩ : BufTy).Contents (Elt Ideal))
    (alpha : (⟨Cert.ReferenceIdeal.S4096x1, .f32⟩ : BufTy).Contents (Elt Ideal)) (perm : (⟨Cert.ReferenceIdeal.S4096, .i32⟩ : BufTy).Contents (Elt Ideal)) :
    Cert.ReferenceIdeal.Read.val_main_v9 (F := Ideal) q fp alpha perm = Cert.KernelIdeal.Staged.weights (F := Ideal) q fp alpha perm := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the layer of the (agreeing) arguments in their result arrays. -/
theorem algebraic : Cert.algebraic_KernelIdeal_ReferenceIdeal := by
  intro m ρ m' ρ' _ hagree
  refine ⟨fun c => Cert.KernelIdeal.Result.out m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.AsLayer.result_eq, weights_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
